-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S512x512 : Shape := ⟨2, ![512, 512]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x512 .f32) (main_arg5 : FVec F S2048 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x2048x2048 .f32) (main_arg1 : FVec F S512x512 .f32) (main_arg2 : FVec F S512x512 .f32) (main_arg3 : FVec F S512x512 .f32) (main_arg4 : FVec F S512x512 .f32) (main_arg5 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S8x2048x2048 : Shape := ⟨3, ![8, 2048, 2048]⟩
abbrev S512x512 : Shape := ⟨2, ![512, 512]⟩
abbrev S2048 : Shape := ⟨1, ![2048]⟩
abbrev S512x2048 : Shape := ⟨2, ![512, 2048]⟩
abbrev S2048x2048 : Shape := ⟨2, ![2048, 2048]⟩
abbrev S1x2048 : Shape := ⟨2, ![1, 2048]⟩
abbrev S16384x2048 : Shape := ⟨2, ![16384, 2048]⟩

abbrev nBuf : Space → Nat
  | .hbm => 23
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x2048, .f32⟩
  | .hbm, ⟨10, _⟩ => ⟨S512x512, .f32⟩
  | .hbm, ⟨11, _⟩ => ⟨S512x2048, .f32⟩
  | .hbm, ⟨12, _⟩ => ⟨S512x512, .f32⟩
  | .hbm, ⟨13, _⟩ => ⟨S512x2048, .f32⟩
  | .hbm, ⟨14, _⟩ => ⟨S512x512, .f32⟩
  | .hbm, ⟨15, _⟩ => ⟨S512x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  transposes_S2048x2048_S2048x2048_1_0 : S2048x2048.Transposes [1, 0] S2048x2048
  bitsLt_bf16_f32 : FTy.bits .bf16 < FTy.bits .f32
  shapeCasts_S2048_S1x2048 : S2048.ShapeCasts S1x2048
  shapeCasts_S8x2048x2048_S16384x2048 : S8x2048x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S8x2048x2048 : S16384x2048.ShapeCasts S8x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v14) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S512x512 : Shape := ⟨2, ![512, 512]⟩
abbrev S2048 : Shape := ⟨1, ![2048]⟩
abbrev S512x2048 : Shape := ⟨2, ![512, 2048]⟩
abbrev S2048x2048 : Shape := ⟨2, ![2048, 2048]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x2048, .f32⟩
  | .hbm, ⟨10, _⟩ => ⟨S512x512, .f32⟩
  | .hbm, ⟨11, _⟩ => ⟨S512x2048, .f32⟩
  | .hbm, ⟨12, _⟩ => ⟨S512x512, .f32⟩
  | .hbm, ⟨13, _⟩ => ⟨S512x2048, .f32⟩
  | .hbm, ⟨14, _⟩ => ⟨S512x512, .f32⟩
  | .hbm, ⟨15, _⟩ => ⟨S512x2048, .f32⟩
  | .hbm, ⟨16, _⟩ => ⟨S2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.KernelFrame.lean ====
/-
  The frame of the kernel's program, at any float instance, and its run with the result array named.

  @main is fifteen host lines (the four quaternion blocks negated and concatenated into the 2048 x 2048 weight
  matrix, its transpose narrowed to bf16, the bias and the activations reshaped), ONE pipelined matmul region over 32
  row blocks of 512 rows, and one reshape of the region's result. The region's body loads its three input blocks whole
  and stores one whole block; so after the body the output block is a function of the three input blocks alone
  (`outBlock`), every input block is left in place, and the pipeline's invariant is untouched. With that proof data
  the pipeline's frame run gives: every weakly fair execution terminates, nothing faults, every array the region stages
  ends at what the library computes from the proof data, and every other buffer at what the last reshape leaves in it.
  None of the six arguments is written by any line, so they end as launched.
-/
import proofs.«151821_j59906203844671_1_alg».proof.Proof.Gen.Kernel.Launch
import proofs.«151821_j59906203844671_1_alg».proof.Proof.Gen.Kernel.Skeleton
import proofs.«151821_j59906203844671_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore's buffer contents when the region is entered: the launch contents after the fifteen host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the region continued by the last reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's result array and a buffer the region does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array the region stages (its result buffer is the program's result, which no window names). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not it was fetched there (an
    unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether or not it was fetched there (an
    unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether or not it was fetched there (an
    unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- The output block after the body: its one whole-block store, of the product of the activation block with the
    weight block plus the bias row, as a function of the three input blocks. -/
def outBlock (x0 : Vec F S512x2048 .f32) (x1 : Vec F S2048x2048 .bf16) (x2 : Vec F S1x2048 .f32) : Vec F S512x2048 .f32 :=
  View.canon [⟨rX, k0_pay1 (View.ld x0 rX) (View.ld x1 rW) (View.ld x2 rB)⟩]

/-- The one store covers the block. -/
theorem outCover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

/-! ## The body's triple -/

set_option maxHeartbeats 1000000 in
/-- The body on whole staging buffers, the inputs' at contents `x0`, `x1`, `x2` and the output's at anything, runs to
    a state with the inputs' buffers as they were and the output's at `outBlock x0 x1 x2`. -/
theorem sound_kernel (c : Dev nD) (E : Set ℕ) (i : grid0.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The proof data of the pipeline on core `c`: the arrays as the region finds them; after the body at point `t`
    each input's buffer at its block and the output's at `outBlock` of the input blocks; the invariant the untouched
    rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array the region stages at what
    the library computes from the proof data and every other unscoped buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result buffer named and the six arguments unchanged: the result is what the last reshape leaves,
    a function of the region's arrays after the run. -/
theorem run_named : θ_run defs (onTc (τ := τ) (main (F := F))) ⟨m, fun _ => 0, ρ⟩ (fun r => ∀ c : Dev nD,
      r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v16 (Pipeline.mem_restRefs_of main_v16 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

/-- The frame: @main runs to the end, nothing faults, the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Fr

end
-- ==== Proof.KernelIdealFrame.lean ====
/-
  The frame of the kernel's program, at any float instance, and its run with the result array named.

  @main is fifteen host lines (the four quaternion blocks negated and concatenated into the 2048 x 2048 weight
  matrix, its transpose narrowed to bf16, the bias and the activations reshaped), ONE pipelined matmul region over 32
  row blocks of 512 rows, and one reshape of the region's result. The region's body loads its three input blocks whole
  and stores one whole block; so after the body the output block is a function of the three input blocks alone
  (`outBlock`), every input block is left in place, and the pipeline's invariant is untouched. With that proof data
  the pipeline's frame run gives: every weakly fair execution terminates, nothing faults, every array the region stages
  ends at what the library computes from the proof data, and every other buffer at what the last reshape leaves in it.
  None of the six arguments is written by any line, so they end as launched.
-/
import proofs.«151821_j59906203844671_1_alg».proof.Proof.Gen.KernelIdeal.Launch
import proofs.«151821_j59906203844671_1_alg».proof.Proof.Gen.KernelIdeal.Skeleton
import proofs.«151821_j59906203844671_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore's buffer contents when the region is entered: the launch contents after the fifteen host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the region continued by the last reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's result array and a buffer the region does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array the region stages (its result buffer is the program's result, which no window names). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not it was fetched there (an
    unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether or not it was fetched there (an
    unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether or not it was fetched there (an
    unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0

/-- The output block after the body: its one whole-block store, of the product of the activation block with the
    weight block plus the bias row, as a function of the three input blocks. -/
def outBlock (x0 : Vec F S512x2048 .f32) (x1 : Vec F S2048x2048 .bf16) (x2 : Vec F S1x2048 .f32) : Vec F S512x2048 .f32 :=
  View.canon [⟨rX, k0_pay1 (View.ld x0 rX) (View.ld x1 rW) (View.ld x2 rB)⟩]

/-- The one store covers the block. -/
theorem outCover (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

/-! ## The body's triple -/

set_option maxHeartbeats 1000000 in
/-- The body on whole staging buffers, the inputs' at contents `x0`, `x1`, `x2` and the output's at anything, runs to
    a state with the inputs' buffers as they were and the output's at `outBlock x0 x1 x2`. -/
theorem sound_kernel (c : Dev nD) (E : Set ℕ) (i : grid0.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlock x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's proof data -/

/-- The proof data of the pipeline on core `c`: the arrays as the region finds them; after the body at point `t`
    each input's buffer at its block and the output's at `outBlock` of the input blocks; the invariant the untouched
    rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array the region stages at what
    the library computes from the proof data and every other unscoped buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result buffer named and the six arguments unchanged: the result is what the last reshape leaves,
    a function of the region's arrays after the run. -/
theorem run_named : θ_run defs (onTc (τ := τ) (main (F := F))) ⟨m, fun _ => 0, ρ⟩ (fun r => ∀ c : Dev nD,
      r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v16 (Pipeline.mem_restRefs_of main_v16 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

/-- The frame: @main runs to the end, nothing faults, the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Fr

end
-- ==== Proof.KernelBlock.lean ====
/- The body of the one matmul region, read at an index.

   The region's single store writes the payload  out = (narrow x_block) · w + broadcast(bias_row):
   a [512, 2048] block of the input times the whole [2048, 2048] weight, accumulated into the zero
   constant, plus the [1, 2048] bias row repeated over the 512 rows. At the ideal values a narrowing
   is the identity and the product into zero is the plain sum over the contracted axis, so at row
   `p` and column `q` the payload is  ∑ₖ x(p, k) · w(k, q) + b(0, q). -/
import proofs.«151821_j59906203844671_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Blk

open Idealize.ShloMosaic Cert.KernelIdeal Cert.KernelIdeal.Gen
open Idealize.ShloMosaic.ValueIdx (ix2)

/-! ## The operand indices of the block product, axis by axis

The product contracts the left operand's axis 1 with the right operand's axis 0; the left operand's
axis 0 is the result's row and the right operand's axis 1 is the result's column. -/

/-- The left operand's row is the result's row. -/
theorem lhs_axis0 (j : S512x2048.Idx) (k : dot_S512x2048_S2048x2048_S512x2048_1_0_0_1_n_n.contr.Idx) :
    (dot_S512x2048_S2048x2048_S512x2048_1_0_0_1_n_n.lhsIdx j k 0).val = (j 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl

/-- The left operand's column is the contraction position. -/
theorem lhs_axis1 (j : S512x2048.Idx) (k : dot_S512x2048_S2048x2048_S512x2048_1_0_0_1_n_n.contr.Idx) :
    (dot_S512x2048_S2048x2048_S512x2048_1_0_0_1_n_n.lhsIdx j k 1).val = (k ⟨0, by decide⟩).val :=
  dot_S512x2048_S2048x2048_S512x2048_1_0_0_1_n_n.lhsIdx_val_of_single rfl j k

/-- The right operand's row is the contraction position. -/
theorem rhs_axis0 (j : S512x2048.Idx) (k : dot_S512x2048_S2048x2048_S512x2048_1_0_0_1_n_n.contr.Idx) :
    (dot_S512x2048_S2048x2048_S512x2048_1_0_0_1_n_n.rhsIdx j k 0).val = (k ⟨0, by decide⟩).val :=
  dot_S512x2048_S2048x2048_S512x2048_1_0_0_1_n_n.rhsIdx_val_of_single rfl j k

/-- The right operand's column is the result's column. -/
theorem rhs_axis1 (j : S512x2048.Idx) (k : dot_S512x2048_S2048x2048_S512x2048_1_0_0_1_n_n.contr.Idx) :
    (dot_S512x2048_S2048x2048_S512x2048_1_0_0_1_n_n.rhsIdx j k 1).val = (j 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-! ## The block product into zero at an index -/

/-- A [512, 2048] block times a [2048, 2048] matrix, accumulated into the zero constant, read at
    row `p` and column `q`: the sum over the 2048 contraction positions `k` of the block at `(p, k)`
    times the matrix at `(k, q)`. The contraction index has one axis of extent 2048, so the sum over
    it is re-indexed by that axis's coordinate. -/
theorem block_product (x : FVec Ideal S512x2048 .bf16) (w : FVec Ideal S2048x2048 .bf16) (p : Fin 512) (q : Fin 2048) :
    matmul dot_S512x2048_S2048x2048_S512x2048_1_0_0_1_n_n none x w (constant (F := Ideal) S512x2048 .f32 0x00000000#32) (ix2 p q)
      = ∑ k : Fin 2048, x (ix2 p k) * w (ix2 k q) := by
  refine (Ideal.matmul_constant_zero_apply dot_S512x2048_S2048x2048_S512x2048_1_0_0_1_n_n none x w (ix2 p q)).trans ?_
  rw [← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  have el : dot_S512x2048_S2048x2048_S512x2048_1_0_0_1_n_n.lhsIdx (ix2 p q) ((ValueIdx.contrEquiv1 dot_S512x2048_S2048x2048_S512x2048_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S512x2048_S2048x2048_S512x2048_1_0_0_1_n_n.rhsIdx (ix2 p q) ((ValueIdx.contrEquiv1 dot_S512x2048_S2048x2048_S512x2048_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## The payload at an index -/

/-- The region's stored payload at row `p` and column `q`: the block product of the loaded input
    block and the loaded weight at `(p, q)`, plus the bias row at column `q`. The three shape casts
    are to the same shape (identities), the narrowing of the input block is the identity on extended
    reals, and the bias row [1, 2048] broadcast over 512 rows reads its one row. -/
theorem pay_apply (v0 : Vec Ideal S512x2048 .f32) (v3 : Vec Ideal S2048x2048 .bf16) (v6 : Vec Ideal S1x2048 .f32) (p : Fin 512) (q : Fin 2048) :
    k0_pay1 (F := Ideal) v0 v3 v6 (ix2 p q)
      = (∑ k : Fin 2048, v0 (ix2 p k) * v3 (ix2 k q)) + v6 (ix2 (0 : Fin 1) q) := by
  unfold k0_pay1
  rw [shapeCast_self, shapeCast_self, shapeCast_self]
  refine (ValueIdx.addf_apply _ _ _).trans ?_
  rw [block_product, ValueIdx.broadcastTo_1b_ab_apply]
  rfl

end Cert.KernelIdeal.Blk

end
-- ==== Proof.KernelArray.lean ====
/-
  From blocks to the array: what the region's result array holds after the run.

  The region's grid has 32 points; point `t` stages rows `512 t … 512 t + 511` of the activations (all 2048 columns),
  the whole weight block and the whole bias row, and writes back rows `512 t … 512 t + 511` of the result. Entry
  `(p, q)` of the block written back at `t` is `(∑ k, x (512 t + p, k) · w (k, q)) + b (0, q)`: the block is the
  restriction to those rows of ONE function `rowsTimes x w b` of the three arrays the region finds. The 32 row blocks
  tile the 16384 rows (row `r` lies in block `r / 512`), so the array ends at that function.
-/
import proofs.«151821_j59906203844671_1_alg».proof.Proof.KernelIdealFrame
import proofs.«151821_j59906203844671_1_alg».proof.Proof.KernelBlock

set_option maxRecDepth 16384

noncomputable section

namespace Cert.KernelIdeal.Arr

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-- Row `j 0` of the activations at column `k`. -/
abbrev rowAt (j : S16384x2048.Idx) (k : Fin 2048) : S16384x2048.Idx := fun a => match a with
  | ⟨0, _⟩ => ⟨(j 0).val, (j 0).isLt⟩
  | ⟨1, _⟩ => ⟨k.val, k.isLt⟩
/-- Row `k` of the transposed weights at column `j 1`. -/
abbrev colAt (k : Fin 2048) (j : S16384x2048.Idx) : S2048x2048.Idx := fun a => match a with
  | ⟨0, _⟩ => ⟨k.val, k.isLt⟩
  | ⟨1, _⟩ => ⟨(j 1).val, (j 1).isLt⟩
/-- The bias row at column `j 1`. -/
abbrev biasAt (j : S16384x2048.Idx) : S1x2048.Idx := fun a => match a with
  | ⟨0, _⟩ => ⟨0, Nat.one_pos⟩
  | ⟨1, _⟩ => ⟨(j 1).val, (j 1).isLt⟩

/-- The result array as one function of the arrays the region finds: the row of the activations times the column of
    the transposed weights, plus the bias row's entry. -/
def rowsTimes (x : FVec Ideal S16384x2048 .f32) (w : FVec Ideal S2048x2048 .bf16) (b : FVec Ideal S1x2048 .f32) :
    FVec Ideal S16384x2048 .f32 :=
  fun j => (∑ k : Fin 2048, x (rowAt j k) * w (colAt k j)) + b (biasAt j)

/-- The definition, at an index. -/
theorem rowsTimes_def (x : FVec Ideal S16384x2048 .f32) (w : FVec Ideal S2048x2048 .bf16) (b : FVec Ideal S1x2048 .f32) (j : S16384x2048.Idx) :
    rowsTimes x w b j = (∑ k : Fin 2048, x (rowAt j k) * w (colAt k j)) + b (biasAt j) := rfl

/-- The same at explicit coordinates: row `r` of `x` against column `o` of `w`, plus the bias row at `o`. -/
theorem rowsTimes_apply (x : FVec Ideal S16384x2048 .f32) (w : FVec Ideal S2048x2048 .bf16) (b : FVec Ideal S1x2048 .f32) (r : Fin 16384) (o : Fin 2048) :
    rowsTimes x w b (ix2 r o) = (∑ k : Fin 2048, x (ix2 r k) * w (ix2 k o)) + b (ix2 (0 : Fin 1) o) := by
  have e1 : ∀ k : Fin 2048, rowAt (ix2 r o) k = ix2 r k := fun k => funext fun d => by match d with | ⟨0, _⟩ => rfl | ⟨1, _⟩ => rfl
  have e2 : ∀ k : Fin 2048, colAt k (ix2 r o) = ix2 k o := fun k => funext fun d => by match d with | ⟨0, _⟩ => rfl | ⟨1, _⟩ => rfl
  have e3 : biasAt (ix2 r o) = ix2 (0 : Fin 1) o := funext fun d => by match d with | ⟨0, _⟩ => rfl | ⟨1, _⟩ => rfl
  rw [rowsTimes_def, e3]
  congr 1
  exact Finset.sum_congr rfl fun k _ => by rw [e1 k, e2 k]

theorem zeros2 : (![0, 0] : Fin 2 → Nat) = fun _ => 0 := funext fun a => by fin_cases a <;> rfl

/-- The printed index maps over the grid: the activations' and the result's blocks move together down the rows, one
    block a point; the weights' and the bias's blocks stay at the origin. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- What point `t` writes back is block `t` of `rowsTimes` of the arrays as the region finds them. -/
theorem flushed_eq (c : Dev nD) (t : Fin cfg0.N) :
    (Fr.dats m 0 c).flushed 3 t = ((cfg0.win 3).blk t).view.read (Elt Ideal)
      (rowsTimes (Fr.V m c main_v14) (Fr.V m c main_v12) (Fr.V m c main_v13)) := by
  show (cfg0.win 3).cut (grid0.coords t) ((Fr.dats m 0 c).after 3 t) = _
  rw [Fr.after0_3]
  unfold Fr.outBlock
  rw [View.canon_unit_zero zeros2]
  simp only [View.ld_unit_zero (S := S512x2048) zeros2, View.ld_unit_zero (S := S2048x2048) zeros2, View.ld_unit_zero (S := S1x2048) zeros2]
  obtain ⟨e0, e1, e2, e3, e4, e5, e6⟩ := idx_facts t
  funext j
  obtain ⟨p, q, rfl⟩ : ∃ (p : Fin 512) (q : Fin 2048), j = ix2 p q := ⟨j 0, j 1, eq_ix2 j⟩
  show k0_pay1 (F := Ideal) (Fr.iblk m c 0 t) (Fr.iblk m c 1 t) (Fr.iblk m c 2 t) (ix2 p q)
    = rowsTimes (Fr.V m c main_v14) (Fr.V m c main_v12) (Fr.V m c main_v13) (((cfg0.win 3).blk t).view.emb (ix2 p q))
  refine (Blk.pay_apply (Fr.iblk m c 0 t) (Fr.iblk m c 1 t) (Fr.iblk m c 2 t) p q).trans ?_
  rw [rowsTimes_def]
  have hx : ∀ k : Fin 2048, ((cfg0.win 0).blk t).view.emb (ix2 p k) = rowAt (((cfg0.win 3).blk t).view.emb (ix2 p q)) k := fun k => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 2048 + 1 * k.val = k.val; omega
  have hw : ∀ k : Fin 2048, ((cfg0.win 1).blk t).view.emb (ix2 k q) = colAt k (((cfg0.win 3).blk t).view.emb (ix2 p q)) := fun k => by
    funext a; apply Fin.ext
    match a with
    | ⟨0, _⟩ => show win0_1.index t (0 : Fin 2) * 2048 + 1 * k.val = k.val; omega
    | ⟨1, _⟩ => show win0_1.index t (1 : Fin 2) * 2048 + 1 * q.val = win0_3.index t (1 : Fin 2) * 2048 + 1 * q.val; omega
  have hb : ((cfg0.win 2).blk t).view.emb (ix2 (0 : Fin 1) q) = biasAt (((cfg0.win 3).blk t).view.emb (ix2 p q)) := by
    funext a; apply Fin.ext
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega
  -- each input block, read at an entry, is its array read where the block sits
  have h0 : ∀ k : Fin 2048, Fr.iblk m c 0 t (ix2 p k) = Fr.V m c main_v14 (rowAt (((cfg0.win 3).blk t).view.emb (ix2 p q)) k) := fun k =>
    congrArg (Fr.V m c main_v14) (hx k)
  have h1 : ∀ k : Fin 2048, Fr.iblk m c 1 t (ix2 k q) = Fr.V m c main_v12 (colAt k (((cfg0.win 3).blk t).view.emb (ix2 p q))) := fun k =>
    congrArg (Fr.V m c main_v12) (hw k)
  have h2 : Fr.iblk m c 2 t (ix2 (0 : Fin 1) q) = Fr.V m c main_v13 (biasAt (((cfg0.win 3).blk t).view.emb (ix2 p q))) :=
    congrArg (Fr.V m c main_v13) hb
  exact congrArg₂ (fun (A B : EReal) => A + B)
    (Finset.sum_congr rfl fun k _ => congrArg₂ (fun (u v : EReal) => u * v) (h0 k) (h1 k)) h2

/-- An index of the array is in point `t`'s block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v15).slice (win0_3.rect t)).set ↔ _
  rw [View.set_slice_whole, Rect.mem_set_unit]
  exact Iff.rfl

/-- Every index of the result array is in the block of the point its row falls in. -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the run is `rowsTimes` of the arrays the region finds. -/
theorem final (c : Dev nD) : (Fr.dats m 0 c).arrAt 3 cfg0.N
    = rowsTimes (Fr.V m c main_v14) (Fr.V m c main_v12) (Fr.V m c main_v13) :=
  (Fr.dats m 0 c).arrAt_eq_of_cover 3 _ (fun t _ => flushed_eq m c t) cover

end Cert.KernelIdeal.Arr

end
-- ==== Proof.KernelHost.lean ====
/-
  What the host lines around the region compute, read at an index.

  Before the region @main builds three arrays for it. The activations [8, 2048, 2048] are reshaped to [16384, 2048]: row
  r = a * 2048 + s of the result is row s of slab a. The bias [2048] is reshaped to [1, 2048]: its one row is the bias. The
  weight matrix is the four 512 x 512 blocks concatenated into the 2048 x 2048 matrix W (the same sixteen-block table the
  reference builds, as one function of the four blocks), then transposed and narrowed to bf16: entry (k, q) of the result is
  W (q, k), the narrowing being the identity on extended reals. After the region the result array [16384, 2048] is reshaped
  back to [8, 2048, 2048]: entry (a, s, o) is entry (a * 2048 + s, o) of the region's result array.

  Each fact is first an equation between whole arrays, for any float family, and then, at extended reals, an equation between
  entries.
-/
import proofs.«151821_j59906203844671_1_alg».proof.Proof.KernelIdealFrame
import proofs.«151821_j59906203844671_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.Pipeline.FrameSuffix

set_option maxRecDepth 16384

noncomputable section

namespace Cert.KernelIdeal.Host

open Idealize.ShloMosaic Idealize.ShloMosaic.TcCoe Idealize.SL.Sem
open Cert.KernelIdeal Cert.KernelIdeal.Gen

/-! ## Row-major positions of indices given by coordinates -/

/-- The position of (a) in a vector is a. -/
theorem rowMajor_ix1 {n0 : Nat} (a : Fin n0) :
    ((⟨1, ![n0]⟩ : Shape).rowMajor (ValueIdx.ix1 a)).val = a.val :=
  Shape.rowMajor_val_one _

/-- The position of (a, b) in a matrix with rows of length n1 is a * n1 + b. -/
theorem rowMajor_ix2 {n0 n1 : Nat} (a : Fin n0) (b : Fin n1) :
    ((⟨2, ![n0, n1]⟩ : Shape).rowMajor (ValueIdx.ix2 a b)).val = a.val * n1 + b.val :=
  Shape.rowMajor_val_two _

/-- The position of (a, b, c) in a rank-3 array with extents n0, n1, n2 is (a * n1 + b) * n2 + c. -/
theorem rowMajor_ix3 {n0 n1 n2 : Nat} (a : Fin n0) (b : Fin n1) (c : Fin n2) :
    ((⟨3, ![n0, n1, n2]⟩ : Shape).rowMajor (ValueIdx.ix3 a b c)).val = (a.val * n1 + b.val) * n2 + c.val :=
  Shape.rowMajor_val_three _

/-! ## The arrays as whole arrays, for any float family -/

section Arrays

variable {F : FTy → Type} [FloatOps F]
variable (m : (ℓ : Loc nD τ sig) → Buf (Elt F) ℓ) (c : Dev nD)

/-- The region's activation array is the activations reshaped to [16384, 2048]. -/
theorem v14_eq :
    @Eq (S16384x2048.Idx → F .f32) (Fr.V m c main_v14)
      (shapeCast (s := S8x2048x2048) (α := F .f32) S16384x2048 (m ((c : Thread nD τ).loc main_arg0)) shapeCasts_S8x2048x2048_S16384x2048) := by
  show StableHlo.after (hostOps0 (F := F)) (fun b => m (c, b)) (Proc.devRef .tc main_v14) = _
  after_results <;> rfl

/-- The region's bias array is the bias reshaped to [1, 2048]. -/
theorem v13_eq :
    @Eq (S1x2048.Idx → F .f32) (Fr.V m c main_v13)
      (shapeCast (s := S2048) (α := F .f32) S1x2048 (m ((c : Thread nD τ).loc main_arg5)) shapeCasts_S2048_S1x2048) := by
  show StableHlo.after (hostOps0 (F := F)) (fun b => m (c, b)) (Proc.devRef .tc main_v13) = _
  after_results <;> rfl

set_option maxHeartbeats 4000000 in
/-- The region's weight array is the 2048 x 2048 matrix of the four blocks, transposed and narrowed to bf16. The matrix is
    the reference's: both programs concatenate the same sixteen blocks in the same order. -/
theorem v12_eq :
    @Eq (S2048x2048.Idx → F .bf16) (Fr.V m c main_v12)
      (truncf (F := F) (s := S2048x2048) (φ := .f32) .bf16
        (transpose (s := S2048x2048) (α := F .f32) S2048x2048 [1, 0]
          (Cert.ReferenceIdeal.Read.val_main_v10 (F := F) (m ((c : Thread nD τ).loc main_arg1)) (m ((c : Thread nD τ).loc main_arg2))
            (m ((c : Thread nD τ).loc main_arg3)) (m ((c : Thread nD τ).loc main_arg4)))
          transposes_S2048x2048_S2048x2048_1_0)
        bitsLt_bf16_f32) := by
  show StableHlo.after (hostOps0 (F := F)) (fun b => m (c, b)) (Proc.devRef .tc main_v12) = _
  after_results <;> rfl

/-- The program's result is the region's result array, as the region leaves it, reshaped to [8, 2048, 2048]. -/
theorem v16_eq :
    @Eq (S8x2048x2048.Idx → F .f32) (Pipeline.afterTail₀ cfgs (Fr.dats m) 0 (Fr.V0 m) [hostOps1] c main_v16)
      (shapeCast (s := S16384x2048) (α := F .f32) S8x2048x2048 ((Fr.dats m 0 c).arrAt 3 cfg0.N) shapeCasts_S16384x2048_S8x2048x2048) := by
  unfold Pipeline.afterTail₀
  show StableHlo.after (hostOps1 (F := F)) _ (Proc.devRef .tc main_v16) = _
  after_results
  first
  | exact congrArg
      (fun X : S16384x2048.Idx → F .f32 => shapeCast (s := S16384x2048) (α := F .f32) S8x2048x2048 X shapeCasts_S16384x2048_S8x2048x2048)
      (Pipeline.withArrays_arr spec0 launch0.win.arr_inj c (Fr.V0 m c) (fun w => (Fr.dats m 0 c).arrAt w cfg0.N) 3)
  | (funext i
     exact congrArg
      (fun X : S16384x2048.Idx → F .f32 => shapeCast (s := S16384x2048) (α := F .f32) S8x2048x2048 X shapeCasts_S16384x2048_S8x2048x2048 i)
      (Pipeline.withArrays_arr spec0 launch0.win.arr_inj c (Fr.V0 m c) (fun w => (Fr.dats m 0 c).arrAt w cfg0.N) 3))
  | (rw [Pipeline.withArrays_arr spec0 launch0.win.arr_inj c (Fr.V0 m c) (fun w => (Fr.dats m 0 c).arrAt w cfg0.N) 3]
     rfl)

end Arrays

/-! ## The arrays at an index, at extended reals -/

section Entries

variable (m : (ℓ : Loc nD τ sig) → Buf (Elt Ideal) ℓ) (c : Dev nD)

/-- Row r = a * 2048 + s of the region's activation array is row s of slab a of the activations. -/
theorem x_apply (r : Fin 16384) (k : Fin 2048) (a : Fin 8) (s : Fin 2048) (h : r.val = a.val * 2048 + s.val) :
    Fr.V (F := Ideal) m c main_v14 (ValueIdx.ix2 r k) = m ((c : Thread nD τ).loc main_arg0) (ValueIdx.ix3 a s k) := by
  refine (congrFun (v14_eq m c) (ValueIdx.ix2 r k)).trans ?_
  exact shapeCast_apply (s := S8x2048x2048) (t := S16384x2048) _ _ (ValueIdx.ix2 r k) (ValueIdx.ix3 a s k)
    ((rowMajor_ix3 a s k).trans
      ((by omega : (a.val * 2048 + s.val) * 2048 + k.val = r.val * 2048 + k.val).trans (rowMajor_ix2 r k).symm))

/-- The one row of the region's bias array is the bias. -/
theorem b_apply (q : Fin 2048) :
    Fr.V (F := Ideal) m c main_v13 (ValueIdx.ix2 (0 : Fin 1) q) = m ((c : Thread nD τ).loc main_arg5) (ValueIdx.ix1 q) := by
  refine (congrFun (v13_eq m c) (ValueIdx.ix2 (0 : Fin 1) q)).trans ?_
  exact shapeCast_apply (s := S2048) (t := S1x2048) _ _ (ValueIdx.ix2 (0 : Fin 1) q) (ValueIdx.ix1 q)
    ((rowMajor_ix1 q).trans
      ((by omega : q.val = 0 * 2048 + q.val).trans (rowMajor_ix2 (0 : Fin 1) q).symm))

/-- A 2048 x 2048 matrix transposed and then narrowed to bf16, at (k, q), is the matrix at (q, k): on extended reals the
    narrowing is the identity. -/
theorem truncf_transpose_apply (W : FVec Ideal S2048x2048 .f32) (k q : Fin 2048) :
    truncf (F := Ideal) (s := S2048x2048) (φ := .f32) .bf16
        (transpose (s := S2048x2048) (α := Ideal .f32) S2048x2048 [1, 0] W transposes_S2048x2048_S2048x2048_1_0)
        bitsLt_bf16_f32 (ValueIdx.ix2 k q)
      = W (ValueIdx.ix2 q k) :=
  (ValueIdx.truncf_apply (s := S2048x2048) (φ := .f32) (ψ := .bf16)
      (transpose (s := S2048x2048) (α := Ideal .f32) S2048x2048 [1, 0] W transposes_S2048x2048_S2048x2048_1_0)
      bitsLt_bf16_f32 (ValueIdx.ix2 k q)).trans
    (transpose_apply (s := S2048x2048) (t := S2048x2048) [1, 0] W transposes_S2048x2048_S2048x2048_1_0
      (ValueIdx.ix2 k q) (ValueIdx.ix2 q k) (fun b => match b with | ⟨0, _⟩ => rfl | ⟨1, _⟩ => rfl))

/-- Entry (k, q) of the region's weight array is entry (q, k) of the matrix of the four blocks. -/
theorem w_apply (k q : Fin 2048) :
    Fr.V (F := Ideal) m c main_v12 (ValueIdx.ix2 k q)
      = Cert.ReferenceIdeal.Read.val_main_v10 (F := Ideal) (m ((c : Thread nD τ).loc main_arg1)) (m ((c : Thread nD τ).loc main_arg2))
          (m ((c : Thread nD τ).loc main_arg3)) (m ((c : Thread nD τ).loc main_arg4)) (ValueIdx.ix2 q k) := by
  refine (congrFun (v12_eq m c) (ValueIdx.ix2 k q)).trans ?_
  exact truncf_transpose_apply
    (Cert.ReferenceIdeal.Read.val_main_v10 (F := Ideal) (m ((c : Thread nD τ).loc main_arg1)) (m ((c : Thread nD τ).loc main_arg2))
      (m ((c : Thread nD τ).loc main_arg3)) (m ((c : Thread nD τ).loc main_arg4))) k q

/-- Entry (a, s, o) of the program's result is entry (a * 2048 + s, o) of the region's result array as the region leaves it. -/
theorem out_apply (a : Fin 8) (s o : Fin 2048) (r : Fin 16384) (h : r.val = a.val * 2048 + s.val) :
    Pipeline.afterTail₀ cfgs (Fr.dats m) 0 (Fr.V0 m) [hostOps1] c main_v16 (ValueIdx.ix3 a s o)
      = (Fr.dats m 0 c).arrAt 3 cfg0.N (ValueIdx.ix2 r o) := by
  refine (congrFun (v16_eq m c) (ValueIdx.ix3 a s o)).trans ?_
  exact shapeCast_apply (s := S16384x2048) (t := S8x2048x2048) _ _ (ValueIdx.ix3 a s o) (ValueIdx.ix2 r o)
    ((rowMajor_ix2 r o).trans
      ((by omega : r.val * 2048 + o.val = (a.val * 2048 + s.val) * 2048 + o.val).trans (rowMajor_ix3 a s o).symm))

end Entries

end Cert.KernelIdeal.Host

end
-- ==== Proof.Spec.lean ====
/-
  The quaternion linear layer as one function of its arrays.

  With `X : [8, 2048, 2048]` the activations, `W : [2048, 2048]` the weight matrix (row `o` is output feature
  `o`) and `b : [2048]` the bias, the layer is
      `lin X W b (a, s, o) = (∑ d, X (a, s, d) · W (o, d)) + b o`
  on the extended reals. Both programs compute this function: the reference by one `dot_general` that contracts the
  last axis of `X` with the last axis of `W`, the kernel by a row-blocked product of the reshaped activations with the
  transposed weights. No algebraic law is needed beyond reading each side at an index: both sums run over the same
  index `d` with the same two factors in the same order.
-/
import Idealize.ShloMosaic.PureOps.Ideal
import Idealize.ShloMosaic.Lib.ValueIdx

noncomputable section

namespace QLinear

open Idealize.ShloMosaic Idealize.ShloMosaic.ValueIdx

abbrev SX : Shape := ⟨3, ![8, 2048, 2048]⟩
abbrev SW : Shape := ⟨2, ![2048, 2048]⟩
abbrev SB : Shape := ⟨1, ![2048]⟩

/-- The layer's result at `(a, s, o)`: row `(a, s)` of the activations against row `o` of the weights, plus `b o`. -/
def lin (X : FVec Ideal SX .f32) (W : FVec Ideal SW .f32) (b : FVec Ideal SB .f32) : FVec Ideal SX .f32 :=
  fun i => (∑ d : Fin 2048, X (ix3 (⟨(i 0).val, (i 0).isLt⟩ : Fin 8) (⟨(i 1).val, (i 1).isLt⟩ : Fin 2048) d)
      * W (ix2 (⟨(i 2).val, (i 2).isLt⟩ : Fin 2048) d)) + b (ix1 (⟨(i 2).val, (i 2).isLt⟩ : Fin 2048))

/-- The same at explicit coordinates. -/
theorem lin_apply (X : FVec Ideal SX .f32) (W : FVec Ideal SW .f32) (b : FVec Ideal SB .f32) (a : Fin 8) (s o : Fin 2048) :
    lin X W b (ix3 a s o) = (∑ d : Fin 2048, X (ix3 a s d) * W (ix2 o d)) + b (ix1 o) := rfl

end QLinear

end
-- ==== Proof.KernelValue.lean ====
/-
  The kernel program computes `QLinear.lin`.

  After the run the program's result is the last reshape of the region's result array: entry `(a, s, o)` is entry
  `(2048 a + s, o)` of that array, which is `(∑ k, x₂ (2048 a + s, k) · wᵀ (k, o)) + b₂ (0, o)`. The host lines
  before the region make `x₂ (2048 a + s, k) = X (a, s, k)` (a reshape), `wᵀ (k, o) = W (o, k)` (the transpose of
  the weight matrix, narrowed to bf16: the identity on extended reals) and `b₂ (0, o) = b o` (a reshape). So the
  result at `(a, s, o)` is `(∑ k, X (a, s, k) · W (o, k)) + b o`.
-/
import proofs.«151821_j59906203844671_1_alg».proof.Proof.KernelArray
import proofs.«151821_j59906203844671_1_alg».proof.Proof.KernelHost
import proofs.«151821_j59906203844671_1_alg».proof.Proof.Spec

noncomputable section

namespace Cert.KernelIdeal.KValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The weight matrix the program builds from its four block arguments. -/
abbrev weights (c : Dev nD) : FVec Ideal Cert.ReferenceIdeal.S2048x2048 .f32 :=
  Cert.ReferenceIdeal.Read.val_main_v10 (F := Ideal) (m ((c.tc : Thread nD τ).loc main_arg1)) (m ((c.tc : Thread nD τ).loc main_arg2))
    (m ((c.tc : Thread nD τ).loc main_arg3)) (m ((c.tc : Thread nD τ).loc main_arg4))

/-- What the program's result buffer holds after the run: the layer of the activations, the weight matrix and the bias. -/
theorem result_eq (c : Dev nD) :
    Pipeline.afterTail₀ cfgs (Fr.dats m) 0 (Fr.V0 m) [hostOps1] c main_v16
      = QLinear.lin (m ((c.tc : Thread nD τ).loc main_arg0)) (weights m c) (m ((c.tc : Thread nD τ).loc main_arg5)) := by
  funext i
  obtain ⟨a, s, o, rfl⟩ : ∃ (a : Fin 8) (s o : Fin 2048), i = ix3 a s o := ⟨i 0, i 1, i 2, eq_ix3 i⟩
  have hr : a.val * 2048 + s.val < 16384 := by have := a.isLt; have := s.isLt; omega
  rw [Host.out_apply m c a s o ⟨a.val * 2048 + s.val, hr⟩ rfl, Arr.final, QLinear.lin_apply]
  refine (Arr.rowsTimes_apply _ _ _ ⟨a.val * 2048 + s.val, hr⟩ o).trans ?_
  rw [Host.b_apply m c o]
  congr 1
  exact Finset.sum_congr rfl fun k _ => by
    rw [Host.x_apply m c ⟨a.val * 2048 + s.val, hr⟩ k a s rfl, Host.w_apply m c k o]

/-- The idealized kernel program's run with its result named: the layer, and the six arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = QLinear.lin (m ((c.tc : Thread nD τ).loc main_arg0)) (weights m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c), (h c).2⟩) (Fr.run_named (F := Ideal) m ρ)

end Cert.KernelIdeal.KValue

end
-- ==== Proof.RefSide.lean ====
/-
  The reference computes `QLinear.lin`.

  Its result is the sum of a `dot_general` that contracts axis 2 of the activations with axis 1 of the weight matrix
  (result axes: the two free axes of the activations, then the free axis of the weights) and of the bias broadcast
  along the last axis. Read at an index `(a, s, o)` the product is `∑ d, X (a, s, d) · W (o, d)` and the broadcast is
  `b o`; the weight matrix is kept as the one function of the four quaternion blocks the reference builds.
-/
import proofs.«151821_j59906203844671_1_alg».proof.Proof.Gen.ReferenceIdeal.Read
import proofs.«151821_j59906203844671_1_alg».proof.Proof.Spec

noncomputable section

namespace Cert.ReferenceIdeal.RefValue

open Idealize.ShloMosaic Idealize.ShloMosaic.ValueIdx Cert.ReferenceIdeal Cert.ReferenceIdeal.Read

/-- The index the product reads the activations at is `(a, s, d)`. -/
theorem lidx_eq (i : S8x2048x2048.Idx) (d : Fin 2048) :
    lidx_main_v11 i d = ix3 (⟨(i 0).val, (i 0).isLt⟩ : Fin 8) (⟨(i 1).val, (i 1).isLt⟩ : Fin 2048) d :=
  funext fun a => by match a with | ⟨0, _⟩ => rfl | ⟨1, _⟩ => rfl | ⟨2, _⟩ => rfl

/-- The index it reads the weights at is `(o, d)`. -/
theorem ridx_eq (i : S8x2048x2048.Idx) (d : Fin 2048) :
    ridx_main_v11 i d = ix2 (⟨(i 2).val, (i 2).isLt⟩ : Fin 2048) d :=
  funext fun a => by match a with | ⟨0, _⟩ => rfl | ⟨1, _⟩ => rfl

/-- The two broadcasts read the bias at `o`. -/
theorem bidx_eq (i : S8x2048x2048.Idx) :
    idx_main_v12 (idx_main_v13 i) = ix1 (⟨(i 2).val, (i 2).isLt⟩ : Fin 2048) :=
  funext fun a => by match a with | ⟨0, _⟩ => rfl

/-- The reference's result is the layer of the activations, the weight matrix built from the four blocks, and the bias. -/
theorem ref_eq (x0 : FVec Ideal S8x2048x2048 .f32) (x1 x2 x3 x4 : FVec Ideal S512x512 .f32) (x5 : FVec Ideal S2048 .f32) :
    val_main_v14 (F := Ideal) x0 x1 x2 x3 x4 x5 = QLinear.lin x0 (val_main_v10 (F := Ideal) x1 x2 x3 x4) x5 := by
  funext i
  rw [val_main_v14_apply, val_main_v11_apply, val_main_v13_apply, val_main_v12_apply]
  simp only [lidx_eq, ridx_eq, bidx_eq]
  rfl

end Cert.ReferenceIdeal.RefValue

end
-- ==== Proof.lean ====
/-
  The certificate of the quaternion linear layer `y = x · Wᵀ + b`.

  The kernel's program builds the 2048 x 2048 weight matrix `W` from four 512 x 512 blocks by concatenation (the
  Hamilton-product layout), transposes it, and multiplies the activations, reshaped to 16384 rows, by it in 32 row
  blocks of 512 rows, adding the bias row; the reference builds the same `W` by the same concatenations and contracts
  the activations' last axis with `W`'s last axis. On the extended reals the narrowing of the activations and of the
  weights to bf16 is the identity and the matrix unit's product into a zero accumulator is the plain sum, so both
  programs end with `(∑ d, X (a, s, d) · W (o, d)) + b o` at every `(a, s, o)`: the same sum, term by term. The
  inputs' finiteness is not used.

  The three frames: each kernel program runs its host lines, the pipelined region (whose body only reads its three
  input blocks and overwrites its output block) and the last reshape, none of which writes an argument; the reference
  is host lines only. The idealization rewrote nothing, so `preserves` states nothing.
-/
import proofs.«151821_j59906203844671_1_alg».proof.Defs
import proofs.«151821_j59906203844671_1_alg».proof.Proof.Gen.Kernel
import proofs.«151821_j59906203844671_1_alg».proof.Proof.Gen.KernelIdeal
import proofs.«151821_j59906203844671_1_alg».proof.Proof.Gen.ReferenceIdeal
import proofs.«151821_j59906203844671_1_alg».proof.Proof.Gen.Pre_finite_inputs
import proofs.«151821_j59906203844671_1_alg».proof.Proof.Gen.ReferenceIdeal.Run
import proofs.«151821_j59906203844671_1_alg».proof.Proof.Gen.ReferenceIdeal.Read
import proofs.«151821_j59906203844671_1_alg».proof.Proof.KernelFrame
import proofs.«151821_j59906203844671_1_alg».proof.Proof.KernelIdealFrame
import proofs.«151821_j59906203844671_1_alg».proof.Proof.KernelValue
import proofs.«151821_j59906203844671_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the layer of the same arrays: the kernel's by its run read through the region's
    blocks and the host lines around it, the reference's by its run read one operation at a time. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
